-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S_ : Shape := ⟨0, ![]⟩
abbrev S8192 : Shape := ⟨1, ![8192]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_arg1 : FVec F S8192x8192 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : IVec S8192x8192 32 := iotaInDim S8192x8192 32 0
  let main_v20 : IVec S8192x8192 32 := iotaInDim S8192x8192 32 1
  let main_c_6 : IVec S_ 32 := constantI S_ 32 0#32
  let main_v21 : IVec S8192x8192 32 := broadcastInDim S8192x8192 ![] bcast_S_S8192x8192 main_c_6
  let main_v22 : IVec S8192x8192 32 := addi main_v19 main_v21
  let main_v23 : IVec S8192x8192 1 := cmpi .eq main_v22 main_v20
  let main_v24 : FVec F S8192x8192 .f32 := uitofp .f32 main_v23
  let main_v25 : FVec F S8192x8192 .f32 := addf main_arg1 main_v24
  let main_cst_7 : FVec F S_ .f32 := constant S_ .f32 0x00000000#32
  let main_v26 : FVec F S8192 .f32 := (fun x v => Host.reduceAdd x v reducesTo_S8192x8192_S8192_d1 h_S_) main_v25 main_cst_7
  let main_cst_8 : FVec F S_ .f32 := constant S_ .f32 0x00000000#32
  let main_v27 : FVec F S8192 .f32 := broadcastInDim S8192 ![] bcast_S_S8192 main_cst_8
  let main_v28 : IVec S8192 1 := cmpf .ogt main_v26 main_v27
  let main_c_9 : IVec S_ 1 := constantI S_ 1 1#1
  let main_v29 : IVec S_ 1 := (fun x v => Host.reduce IntOp.andi x v reducesTo_S8192_S_d0 h_S_) main_v28 main_c_9
  let main_v30 : IVec S_ 1 := andi main_v18 main_v29
  main_v30

def fn {F : FTy → Type} [FloatOps F] (main_arg0 : FVec F S8192x256 .f32) (main_arg1 : FVec F S8192x8192 .f32) (main_arg2 : FVec F S256x256 .f32) (main_arg3 : FVec F S256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_v13 main_v16
-- ==== Kernel.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S8192x1 : Shape := ⟨2, ![8192, 1]⟩
abbrev S512x8192 : Shape := ⟨2, ![512, 8192]⟩
abbrev S512x1 : Shape := ⟨2, ![512, 1]⟩
abbrev S512 : Shape := ⟨1, ![512]⟩
abbrev S1024x256 : Shape := ⟨2, ![1024, 256]⟩
abbrev S1024x1 : Shape := ⟨2, ![1024, 1]⟩
abbrev S1x256 : Shape := ⟨2, ![1, 256]⟩
abbrev S256x8192 : Shape := ⟨2, ![256, 8192]⟩
abbrev S256x1 : Shape := ⟨2, ![256, 1]⟩

abbrev nBuf : Space → Nat
  | .hbm => 9
  | .vmem => 23
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x256, .f32⟩
  | .hbm, ⟨3, _⟩ => ⟨S256, .f32⟩
  | .hbm, ⟨4, _⟩ => ⟨S8192x1, .f32⟩
  | .hbm, ⟨5, _⟩ => ⟨S8192x256, .f32⟩
  | .hbm, ⟨6, _⟩ => ⟨S8192x256, .f32⟩
  | .hbm, ⟨7, _⟩ => ⟨S1x256, .f32⟩
  | .hbm, ⟨8, _⟩ => ⟨S8192x256, .f32⟩
  | .local _ .vmem, ⟨0, _⟩ => ⟨S512x8192, .f32⟩
  | .local _ .vmem, ⟨1, _⟩ => ⟨S512x8192, .f32⟩
  | .local _ .vmem, ⟨2, _⟩ => ⟨S512x1, .f32⟩
  | .local _ .vmem, ⟨3, _⟩ => ⟨S512x1, .f32⟩
  | .local _ .vmem, ⟨4, _⟩ => ⟨S1024x256, .f32⟩
  | .local _ .vmem, ⟨5, _⟩ => ⟨S1024x256, .f32⟩
  | .local _ .vmem, ⟨6, _⟩ => ⟨S256x256, .f32⟩
  | .local _ .vmem, ⟨7, _⟩ => ⟨S1024x1, .f32⟩
  | .local _ .vmem, ⟨8, _⟩ => ⟨S1024x1, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S256x8192, .f32⟩
  | .local _ .vmem, ⟨14, _⟩ => ⟨S256x8192, .f32⟩
  | .local _ .vmem, ⟨15, _⟩ => ⟨S8192x256, .f32⟩
  | .local _ .vmem, ⟨16, _⟩ => ⟨S256x256, .f32⟩
  | .local _ .vmem, ⟨17, _⟩ => ⟨S256x256, .f32⟩
  | .local _ .vmem, ⟨18, _⟩ => ⟨S256x1, .f32⟩
  | .local _ .vmem, ⟨19, _⟩ => ⟨S256x1, .f32⟩
  | .local _ .vmem, ⟨20, _⟩ => ⟨S1x256, .f32⟩
  | .local _ .vmem, ⟨21, _⟩ => ⟨S256x256, .f32⟩
  | .local _ .vmem, ⟨22, _⟩ => ⟨S256x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem5_0 : DmaSem sig := 21
abbrev cc2_sem5_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x8192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S256x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  inb_S512x8192_S512x8192_0_0 : ∀ a, (![0, 0] : Fin 2 → Nat) a + S512x8192.size a ≤ S512x8192.size a
  h_S512x8192 : 0 < S512x8192.numel
  reduces_S512x8192_S512 : S512x8192.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x256 : S1024x1.Broadcasts S1024x256
  shapeCasts_S256_S1x256 : S256.ShapeCasts S1x256
  inb_S256x8192_S256x8192_0_0 : ∀ a, (![0, 0] : Fin 2 → Nat) a + S256x8192.size a ≤ S256x8192.size a
  h_S256x8192 : 0 < S256x8192.numel
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x256 : S256x1.Broadcasts S256x256
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  dot_S1024x256_S256x256_S1024x256_1_0_0_1_n_n_wf : DotDims.WF S1024x256 S256x256 S1024x256 [1] [0] [0] [1] [] []
  dot_S256x8192_S8192x256_S256x256_1_0_0_1_n_n_wf : DotDims.WF S256x8192 S8192x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S8192x8192.size a
  hwx0_0 : ∀ i : grid0.Coords, EltTy.bits .f32 = 32 ∨ (Rect.block (s := S8192x8192) S512x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S8192x256.size a
  hwx1_3 : ∀ i : grid1.Coords, EltTy.bits .f32 = 32 ∨ (Rect.block (s := S8192x256) S1024x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x256.size a ≤ S8192x256.size a
  hwx1_4 : ∀ i : grid1.Coords, EltTy.bits .f32 = 32 ∨ (Rect.block (s := S8192x256) S1024x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x8192.size a ≤ S8192x8192.size a
  hwx2_0 : ∀ i : grid2.Coords, EltTy.bits .f32 = 32 ∨ (Rect.block (s := S8192x8192) S256x8192.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x256.size a ≤ S8192x256.size a
  hwx2_1 : ∀ i : grid2.Coords, EltTy.bits .f32 = 32 ∨ (Rect.block (s := S8192x256) S8192x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S8192x256.size a
  hwx2_2 : ∀ i : grid2.Coords, EltTy.bits .f32 = 32 ∨ (Rect.block (s := S8192x256) S256x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x1.size a ≤ S8192x1.size a
  hwx2_3 : ∀ i : grid2.Coords, EltTy.bits .f32 = 32 ∨ (Rect.block (s := S8192x1) S256x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S8192x256.size a
  hwx2_5 : ∀ i : grid2.Coords, EltTy.bits .f32 = 32 ∨ (Rect.block (s := S8192x256) S256x256.size (cc2_transform_5 i) (hinb2_5 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S256x8192_S8192x256_S256x256_1_0_0_1_n_n : DotDims S256x8192 S8192x256 S256x256 where
  lhsContracting := [1]
  rhsContracting := [0]
  lhsNonContracting := [0]
  rhsNonContracting := [1]
  lhsBatch := []
  rhsBatch := []
  wf := dot_S256x8192_S8192x256_S256x256_1_0_0_1_n_n_wf

abbrev win0_0 : Pipeline.Window sig grid0 :=
  Pipeline.Window.ofSpec (Memref.whole main_arg1) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1_0) S1024x256.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1_1) S1024x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S256x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1_1) S8192x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v1_0) S256x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v0) S256x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v2) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v3) S256x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1x256 : Shape := ⟨2, ![1, 256]⟩

abbrev nBuf : Space → Nat
  | .hbm => 32
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x256, .f32⟩
  | .hbm, ⟨3, _⟩ => ⟨S256, .f32⟩
  | .hbm, ⟨4, _⟩ => ⟨S8192x8192, .i32⟩
  | .hbm, ⟨5, _⟩ => ⟨S8192x8192, .i32⟩
  | .hbm, ⟨6, _⟩ => ⟨S_, .i32⟩
  | .hbm, ⟨7, _⟩ => ⟨S8192x8192, .i32⟩
  | .hbm, ⟨8, _⟩ => ⟨S8192x8192, .i32⟩
  | .hbm, ⟨9, _⟩ => ⟨S8192x8192, .i1⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S8192x1, .f32⟩
  | .hbm, ⟨19, _⟩ => ⟨S8192x8192, .f32⟩
  | .hbm, ⟨20, _⟩ => ⟨S8192x8192, .f32⟩
  | .hbm, ⟨21, _⟩ => ⟨S1x8192, .f32⟩
  | .hbm, ⟨22, _⟩ => ⟨S8192x8192, .f32⟩
  | .hbm, ⟨23, _⟩ => ⟨S8192x8192, .f32⟩
  | .hbm, ⟨24, _⟩ => ⟨S8192x256, .f32⟩
  | .hbm, ⟨25, _⟩ => ⟨S8192x256, .f32⟩
  | .hbm, ⟨26, _⟩ => ⟨S1x256, .f32⟩
  | .hbm, ⟨27, _⟩ => ⟨S8192x256, .f32⟩
  | .hbm, ⟨28, _⟩ => ⟨S8192x256, .f32⟩
  | .hbm, ⟨29, _⟩ => ⟨S_, .f32⟩
  | .hbm, ⟨30, _⟩ => ⟨S8192x256, .f32⟩
  | .hbm, ⟨31, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_cst : Ref sig .tc := ⟨.hbm, 29, rfl⟩
abbrev main_call0_v0 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  dot_S8192x256_S256x256_S8192x256_1_0_0_1_n_n_wf : DotDims.WF S8192x256 S256x256 S8192x256 [1] [0] [0] [1] [] []
  dot_S8192x8192_S8192x256_S8192x256_1_0_0_1_n_n_wf : DotDims.WF S8192x8192 S8192x256 S8192x256 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.Spec.lean ====
/-
  The mathematics of the graph-convolution layer, as functions of the argument arrays over the extended reals.

  Inputs: the adjacency array `a` (8192 × 8192), the features `x` (8192 × 256), the weights `w` (256 × 256) and the
  bias `b` (256). Write `s = x · w` for the support, `S_i = Σ_j a_ij` for a row sum.

  The three-stage program computes a degree factor `d_i = rsqrt (S_i + 1)`, the support and the support scaled row by
  row, `s_jk · d_j`, and then `max (d_i · Σ_j a_ij · (s_jk · d_j) + (d_i · d_i) · s_ik + b_k) 0`.
  The reference adds the identity to `a`, takes `e_i = 1 / sqrt (Σ_j (a_ij + δ_ij))`, scales the sum's matrix entry by
  entry, `((a_ij + δ_ij) · e_i) · e_j`, multiplies by the support and ends in `max (… + b_k) 0`.

  Where every row sum `Σ_j (a_ij + δ_ij)` is positive and the entries of `a`, `x`, `w` are real numbers, `d = e` is a
  positive real and the two results agree by distributing `d_i` over the sum and reading off the diagonal term:
  `kerOut_eq_refOut` (proved in another module over these definitions).
-/
import Idealize.ShloMosaic.PureOps.Ideal
import Idealize.ShloMosaic.Lib.ValueIdx

noncomputable section

namespace Cert.Spec

open Idealize.ShloMosaic Idealize.ShloMosaic.ValueIdx

/-- The adjacency array's shape. -/
abbrev SA : Shape := ⟨2, ![8192, 8192]⟩
/-- The features', the support's and the result's shape. -/
abbrev SX : Shape := ⟨2, ![8192, 256]⟩
/-- The weights' shape. -/
abbrev SW : Shape := ⟨2, ![256, 256]⟩
/-- The bias's shape. -/
abbrev SB : Shape := ⟨1, ![256]⟩
/-- The degree column's shape. -/
abbrev SD : Shape := ⟨2, ![8192, 1]⟩
/-- The bias as a row. -/
abbrev SR : Shape := ⟨2, ![1, 256]⟩

/-! ## The support -/

/-- `(x · w)_ik`. -/
def sup (x : SX.Idx → EReal) (w : SW.Idx → EReal) (i : Fin 8192) (k : Fin 256) : EReal :=
  ∑ l : Fin 256, x (ix2 i l) * w (ix2 l k)

/-! ## The three stages, each as a function of the arrays it reads -/

/-- Row `i`'s degree factor as the first stage computes it: `rsqrt (Σ_j a_ij + 1)`. -/
def kdeg (a : SA.Idx → EReal) (i : Fin 8192) : EReal :=
  Ideal.rsqrt ((∑ j : Fin 8192, a (ix2 i j)) + 1)

/-- The first stage's result: the degree factors as a column. -/
def degArr (a : SA.Idx → EReal) : SD.Idx → EReal := fun i => kdeg a (i 0)

/-- The second stage's first result: the support. -/
def supArr (x : SX.Idx → EReal) (w : SW.Idx → EReal) : SX.Idx → EReal := fun i => sup x w (i 0) (i 1)

/-- The second stage's second result: the support with row `j` scaled by the column `d`'s entry `j`. -/
def scaledArr (x : SX.Idx → EReal) (w : SW.Idx → EReal) (d : SD.Idx → EReal) : SX.Idx → EReal :=
  fun i => sup x w (i 0) (i 1) * d (ix2 (i 0) 0)

/-- The third stage's result from the arrays it reads: the adjacency `a`, the scaled support `ss`, the support `s`,
    the degree column `d` and the bias row `r`. -/
def aggArr (a : SA.Idx → EReal) (ss s : SX.Idx → EReal) (d : SD.Idx → EReal) (r : SR.Idx → EReal) : SX.Idx → EReal :=
  fun i => max (d (ix2 (i 0) 0) * (∑ j : Fin 8192, a (ix2 (i 0) j) * ss (ix2 j (i 1)))
    + (d (ix2 (i 0) 0) * d (ix2 (i 0) 0)) * s i + r (ix2 0 (i 1))) 0

/-- The three stages composed: the program's result as one function of its arguments. -/
def kerOut (a : SA.Idx → EReal) (x : SX.Idx → EReal) (w : SW.Idx → EReal) (b : SB.Idx → EReal) : SX.Idx → EReal :=
  aggArr a (scaledArr x w (degArr a)) (supArr x w) (degArr a) (fun i => b (ix1 (i 1)))

/-! ## The reference -/

/-- The identity matrix's entry. -/
def eye (i j : Fin 8192) : EReal := if i = j then 1 else 0

/-- Row `i`'s sum of the adjacency with self-loops: `Σ_j (a_ij + δ_ij)`. -/
def rsum (a : SA.Idx → EReal) (i : Fin 8192) : EReal := ∑ j : Fin 8192, (a (ix2 i j) + eye i j)

/-- Row `i`'s degree factor as the reference computes it: `1 / sqrt (Σ_j (a_ij + δ_ij))`. -/
def rdeg (a : SA.Idx → EReal) (i : Fin 8192) : EReal := Ideal.div 1 (Ideal.sqrt (rsum a i))

/-- The reference's result as one function of its arguments. -/
def refOut (a : SA.Idx → EReal) (x : SX.Idx → EReal) (w : SW.Idx → EReal) (b : SB.Idx → EReal) : SX.Idx → EReal :=
  fun i => max ((∑ j : Fin 8192, ((a (ix2 (i 0) j) + eye (i 0) j) * rdeg a (i 0)) * rdeg a j * sup x w j (i 1))
    + b (ix1 (i 1))) 0

end Cert.Spec

end
-- ==== Proof.Algebra.lean ====
/-
  The law that joins the two programs. With real entries and positive row sums `r_i = Σ_j (a_ij + δ_ij)`, both degree
  factors are the positive real `d_i = (√r_i)⁻¹`: the three-stage program's `rsqrt (Σ_j a_ij + 1)` because
  `Σ_j (a_ij + δ_ij) = Σ_j a_ij + 1`, the reference's `1 / sqrt r_i` because `√r_i ≠ 0`. The support is a real
  number `s_jk` as well, and then
      d_i · Σ_j a_ij · (s_jk · d_j) + (d_i · d_i) · s_ik = Σ_j ((a_ij + δ_ij) · d_i) · d_j · s_jk
  over the reals: the right-hand sum splits into the `a` part, from which `d_i` comes out, and the `δ` part, which is
  its one diagonal term `d_i · d_i · s_ik`.
-/
import proofs.«149356_j79121887527623_1_alg».proof.Proof.Spec

noncomputable section

namespace Cert.Spec

open Idealize.ShloMosaic Idealize.ShloMosaic.ValueIdx

/-! ## Sums of real numbers inside the extended reals -/

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-! ## The law over the reals -/

/-- Distributing the row factor over the aggregation and reading off the diagonal term. -/
theorem real_law {n : ℕ} (a : Fin n → Fin n → ℝ) (d s : Fin n → ℝ) (i : Fin n) :
    d i * (∑ j, a i j * (s j * d j)) + (d i * d i) * s i
      = ∑ j, ((a i j + if i = j then 1 else 0) * d i) * d j * s j := by
  have h : ∀ j, ((a i j + if i = j then 1 else 0) * d i) * d j * s j
      = d i * (a i j * (s j * d j)) + if i = j then d i * d j * s j else 0 := by
    intro j; split_ifs <;> ring
  simp only [h, Finset.sum_add_distrib, Finset.sum_ite_eq, Finset.mem_univ, if_true, ← Finset.mul_sum]

/-! ## The two degree factors are one positive real -/

/-- The identity matrix's entry is a real number. -/
theorem eye_coe (i j : Fin 8192) : eye i j = (((if i = j then 1 else 0 : ℝ)) : EReal) := by
  unfold eye; split_ifs <;> simp

section
variable (a : SA.Idx → EReal) (a' : SA.Idx → ℝ) (ha : ∀ i, a i = (a' i : EReal))
include ha

/-- A row sum of the adjacency with self-loops is the real `Σ_j a_ij + 1`. -/
theorem rsum_coe (i : Fin 8192) : rsum a i = (((∑ j : Fin 8192, a' (ix2 i j)) + 1 : ℝ) : EReal) := by
  unfold rsum
  simp only [ha, eye_coe, ← EReal.coe_add, ← coe_sum, Finset.sum_add_distrib, Finset.sum_ite_eq, Finset.mem_univ,
    if_true]

/-- The program's degree factor, where the row sum is positive: `(√r_i)⁻¹`. -/
theorem kdeg_coe (i : Fin 8192) (hpos : 0 < (∑ j : Fin 8192, a' (ix2 i j)) + 1) :
    kdeg a i = (((Real.sqrt ((∑ j : Fin 8192, a' (ix2 i j)) + 1))⁻¹ : ℝ) : EReal) := by
  unfold kdeg
  simp only [ha, ← coe_sum]
  rw [← EReal.coe_one, ← EReal.coe_add, Ideal.rsqrt_coe, if_neg (not_lt.mpr hpos.le), if_neg hpos.ne']

/-- The reference's degree factor, where the row sum is positive: the same `(√r_i)⁻¹`. -/
theorem rdeg_coe (i : Fin 8192) (hpos : 0 < (∑ j : Fin 8192, a' (ix2 i j)) + 1) :
    rdeg a i = (((Real.sqrt ((∑ j : Fin 8192, a' (ix2 i j)) + 1))⁻¹ : ℝ) : EReal) := by
  unfold rdeg
  rw [rsum_coe a a' ha i, Ideal.sqrt_coe, if_neg (not_lt.mpr hpos.le),
    Ideal.div_coe (Real.sqrt_ne_zero'.mpr hpos), one_mul, one_div]

end

/-! ## The two results agree -/

/-- Under real entries of `a`, `x`, `w` and positive row sums of `a + I`, the three-stage program's result is the
    reference's. The bias may be any extended real: it is added last on both sides. -/
theorem kerOut_eq_refOut (a : SA.Idx → EReal) (x : SX.Idx → EReal) (w : SW.Idx → EReal) (b : SB.Idx → EReal)
    (hx : ∀ i, ∃ r : ℝ, x i = (r : EReal)) (ha : ∀ i, ∃ r : ℝ, a i = (r : EReal))
    (hw : ∀ i, ∃ r : ℝ, w i = (r : EReal)) (hpos : ∀ i : Fin 8192, 0 < rsum a i) :
    kerOut a x w b = refOut a x w b := by
  choose x' hx' using hx
  choose a' ha' using ha
  choose w' hw' using hw
  -- the row sums as reals, positive
  have hr : ∀ i : Fin 8192, 0 < (∑ j : Fin 8192, a' (ix2 i j)) + 1 := fun i => by
    have h := hpos i
    rw [rsum_coe a a' ha' i] at h
    exact EReal.coe_pos.mp h
  -- the support as a real
  have hs : ∀ (j : Fin 8192) (k : Fin 256), sup x w j k = ((∑ l : Fin 256, x' (ix2 j l) * w' (ix2 l k) : ℝ) : EReal) := by
    intro j k
    unfold sup
    simp only [hx', hw', ← EReal.coe_mul, ← coe_sum]
  funext idx
  obtain ⟨p, q, rfl⟩ : ∃ (p : Fin 8192) (q : Fin 256), idx = ix2 p q := ⟨idx 0, idx 1, eq_ix2 idx⟩
  show max (kdeg a p * (∑ j : Fin 8192, a (ix2 p j) * (sup x w j q * kdeg a j))
        + (kdeg a p * kdeg a p) * sup x w p q + b (ix1 q)) 0
      = max ((∑ j : Fin 8192, ((a (ix2 p j) + eye p j) * rdeg a p) * rdeg a j * sup x w j q) + b (ix1 q)) 0
  refine congrArg (fun t => max (t + b (ix1 q)) 0) ?_
  -- both sides are the coercion of one real number
  have hk : ∀ i, kdeg a i = (((Real.sqrt ((∑ j : Fin 8192, a' (ix2 i j)) + 1))⁻¹ : ℝ) : EReal) :=
    fun i => kdeg_coe a a' ha' i (hr i)
  have hrd : ∀ i, rdeg a i = (((Real.sqrt ((∑ j : Fin 8192, a' (ix2 i j)) + 1))⁻¹ : ℝ) : EReal) :=
    fun i => rdeg_coe a a' ha' i (hr i)
  simp only [hk, hrd, hs, ha', eye_coe, ← EReal.coe_mul, ← EReal.coe_add, ← coe_sum]
  exact congrArg _ (real_law (fun i j => a' (ix2 i j))
    (fun i => (Real.sqrt ((∑ j : Fin 8192, a' (ix2 i j)) + 1))⁻¹)
    (fun j => ∑ l : Fin 256, x' (ix2 j l) * w' (ix2 l q)) p)

end Cert.Spec

end
-- ==== Proof.Region0.lean ====
/- The first stage (the degree factors): the array it leaves, as a function of the adjacency array it reads. -/
import proofs.«149356_j79121887527623_1_alg».proof.Proof.Gen.KernelIdeal.Frame
import proofs.«149356_j79121887527623_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stage0

open Cert.KernelIdeal Cert.KernelIdeal.Gen Idealize.ShloMosaic Idealize.ShloMosaic.TcCoe Idealize.SL.Sem
open Idealize.ShloMosaic.Pipeline (Dat)
open Idealize.ShloMosaic.ValueIdx

/-! ## The body's value at one entry -/

/-- The zero offsets of a store or load that spans its whole buffer. -/
theorem zero_offsets : (![0, 0] : Fin 2 → Nat) = fun _ => 0 := funext fun a => by fin_cases a <;> rfl

/-- The word `0x3F800000` is the real number one. -/
theorem ofBits_one : Ideal.ofBits .f32 0x3F800000#32 = 1 := by
  simp [Ideal.ofBits, Ideal.ieee, -EReal.coe_mul]; norm_num

/-- A vector of length `a` seen as a column `[a, 1]` reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Row `p` with column `k` put back is the entry `(p, k)`. -/
theorem lift_row (p : Fin 512) (k : Fin 8192) : reduces_S512x8192_S512.lift (ix1 p) k = ix2 p k := by
  funext c; apply Fin.ext
  fin_cases c <;> rfl

/-- The sum along the lanes of a `[512, 8192]` block, at row `p`: the sum of the row's 8192 entries. -/
theorem laneSum_apply (x0 : FVec Ideal S512x8192 .f32) (hacc : (0x00000000#32 : BitVec 32) = 0x00000000#32) (p : Fin 512) :
    multiReduction (F := Ideal) .add [1] S512 x0 0x00000000#32 reduces_S512x8192_S512 (.inl rfl) hacc (ix1 p)
      = ∑ k : Fin 8192, x0 (ix2 p k) := by
  refine (Ideal.multiReduction_add_single x0 0x00000000#32 reduces_S512x8192_S512 (.inl rfl) hacc (ix1 p)).trans ?_
  show (∑ k : Fin 8192, x0 (reduces_S512x8192_S512.lift (ix1 p) k)) = _
  exact Finset.sum_congr rfl fun k _ => congrArg x0 (lift_row p k)

/-- What the body stores at row `p` of its block: `rsqrt` of the row's sum plus one. -/
theorem pay_apply (x0 : FVec Ideal S512x8192 .f32) (p : Fin 512) (q : Fin 1) :
    k0_pay1 (F := Ideal) x0 (ix2 p q) = Ideal.rsqrt ((∑ k : Fin 8192, x0 (ix2 p k)) + 1) := by
  unfold k0_pay1
  show Ideal.rsqrt (shapeCast S512x1 (multiReduction (F := Ideal) .add [1] S512 x0 0x00000000#32 reduces_S512x8192_S512 (.inl rfl) rfl) shapeCasts_S512_S512x1 (ix2 p q)
    + Ideal.ofBits .f32 0x3F800000#32) = _
  rw [ofBits_one, shapeCast_a_a1_apply, laneSum_apply]

/-! ## From the blocks to the array -/

-- the buffer contents when the stage is entered
variable (V : (c : Dev nD) → (b : Ref sig .tc) → Buf (Elt Ideal) ((c : Thread nD τ).loc b))

/-- Where the two windows sit at grid point `t`: both on row block `t`, the only column block. -/
theorem block_indices : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The adjacency block that point `t` reads is rows `512 t … 512 t + 511` of the adjacency array. -/
theorem adj_block_apply (c : Dev nD) (t : Fin cfg0.N) (p : Fin 512) (k : Fin 8192) (r : Fin 8192)
    (hr : r.val = t.val * 512 + p.val) :
    (iblk0 V c 0 t : Vec Ideal S512x8192 .f32) (ix2 p k) = (V c main_arg1 : Cert.Spec.SA.Idx → EReal) (ix2 r k) := by
  obtain ⟨e0, e1, -, -⟩ := block_indices t
  show V c main_arg1 (((cfg0.win 0).blk t).view.emb (ix2 p k)) = V c main_arg1 (ix2 r k)
  refine congrArg (V c main_arg1) ?_
  funext a; apply Fin.ext
  match a with
  | ⟨0, _⟩ => show win0_0.index t (0 : Fin 2) * 512 + 1 * p.val = r.val; omega
  | ⟨1, _⟩ => show win0_0.index t (1 : Fin 2) * 8192 + 1 * k.val = k.val; omega

/-- What point `t` writes back is its block of the degree column of the adjacency array. -/
theorem flushed_eq (c : Dev nD) (t : Fin cfg0.N) :
    (dat0 (F := Ideal) V c).flushed 1 t = ((cfg0.win 1).blk t).view.read (Elt Ideal) (Cert.Spec.degArr (V c main_arg1)) := by
  show (cfg0.win 1).cut (grid0.coords t) ((dat0 V c).after 1 t) = _
  rw [after0_1]
  unfold out0_1
  rw [View.canon_unit_zero zero_offsets]
  simp only [View.ld_unit_zero (S := S512x8192) zero_offsets]
  obtain ⟨-, -, e2, e3⟩ := block_indices t
  funext j
  have hp : (j 0).val < 512 := (j 0).isLt
  have hq : (j 1).val < 1 := (j 1).isLt
  have ht : t.val < 16 := t.isLt
  show k0_pay1 (F := Ideal) (iblk0 V c 0 t) (ix2 (⟨(j 0).val, hp⟩ : Fin 512) (⟨(j 1).val, hq⟩ : Fin 1))
    = Cert.Spec.kdeg (V c main_arg1) (⟨win0_1.index t (0 : Fin 2) * 512 + 1 * (j 0).val, by omega⟩ : Fin 8192)
  rw [pay_apply]
  unfold Cert.Spec.kdeg
  refine congrArg (fun s => Ideal.rsqrt (s + 1)) (Finset.sum_congr rfl fun k _ => ?_)
  exact adj_block_apply V c t _ k _ (by show win0_1.index t (0 : Fin 2) * 512 + 1 * (j 0).val = t.val * 512 + (j 0).val; omega)

/-- An index of the column is in point `t`'s block iff its row is among the block's 512. -/
theorem mem_blk (t : Fin cfg0.N) (i : S8192x1.Idx) :
    i ∈ ((cfg0.win 1).blk t).view.set ↔ ∀ a : Fin 2, win0_1.index t a * S512x1.size a ≤ (i a).val ∧ (i a).val < win0_1.index t a * S512x1.size a + S512x1.size a := by
  show i ∈ ((View.whole main_v0).slice (win0_1.rect t)).set ↔ _
  rw [View.set_slice_whole, Rect.mem_set_unit]
  exact Iff.rfl

/-- Every row of the column is in some point's block: row `r` in point `r / 512`'s. -/
theorem covered (i : S8192x1.Idx) : ∃ t : Fin cfg0.N, (cfg0.win 1).flush t = true ∧ i ∈ ((cfg0.win 1).blk t).view.set := by
  have hi0 : (i 0).val < 8192 := (i 0).isLt
  have hi1 : (i 1).val < 1 := (i 1).isLt
  let t : Fin cfg0.N := ⟨(i 0).val / 512, by show (i 0).val / 512 < 16; omega⟩
  obtain ⟨-, -, e2, e3⟩ := block_indices t
  have e2' : win0_1.index t (0 : Fin 2) = (i 0).val / 512 := e2
  refine ⟨t, flush0_1 t, ?_⟩
  rw [mem_blk]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 1 ≤ (i 1).val ∧ (i 1).val < win0_1.index t (1 : Fin 2) * 1 + 1; omega

/-- After the first stage its result array holds, at row `i`, `rsqrt (Σ_j a_ij + 1)` of the adjacency array `a` the
    stage found: each grid point writes the 512 rows of its block, and the 16 blocks tile the column. -/
theorem final (c : Dev nD) : (dat0 (F := Ideal) V c).arrAt 1 cfg0.N = Cert.Spec.degArr (V c main_arg1) :=
  (dat0 (F := Ideal) V c).arrAt_eq_of_cover 1 (Cert.Spec.degArr (V c main_arg1)) (fun t _ => flushed_eq V c t) covered

end Cert.KernelIdeal.Stage0

end
-- ==== Proof.Region1.lean ====
/- The second stage (the support and the scaled support): the two arrays it leaves, as functions of the arrays it reads. -/
import proofs.«149356_j79121887527623_1_alg».proof.Proof.Gen.KernelIdeal.Frame
import proofs.«149356_j79121887527623_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stage1

open Cert.KernelIdeal Cert.KernelIdeal.Gen Idealize.ShloMosaic Idealize.ShloMosaic.TcCoe Idealize.SL.Sem
open Idealize.ShloMosaic.Pipeline (Dat)
open Idealize.ShloMosaic.ValueIdx

/-! ## The body's arithmetic at one entry of a block -/

/-- A block is read and written whole: the zero offsets, spelt as a constant function. -/
theorem zero_offsets : (![0, 0] : Fin 2 → Nat) = fun _ => 0 := funext fun a => by fin_cases a <;> rfl

/-- The product's left operand is read in the result's row … -/
theorem lhs_row (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
/-- … at the summation index as its column; -/
theorem lhs_col (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
/-- the right operand at the summation index as its row … -/
theorem rhs_row (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
/-- … in the result's column. -/
theorem rhs_col (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- Entry `(p, q)` of the product of a block of 1024 feature rows `x` with the weights `w`: the narrowing of the
    operands changes no extended real and the accumulator starts at zero, so it is `Σ_l x_pl · w_lq`. -/
theorem prod_apply (x : Vec Ideal S1024x256 .f32) (w : Vec Ideal S256x256 .f32) (p : Fin 1024) (q : Fin 256) :
    k1_pay1 (F := Ideal) x w (ix2 p q) = ∑ l : Fin 256, x (ix2 p l) * w (ix2 l q) := by
  unfold k1_pay1
  refine (Ideal.matmul_constant_zero_apply dot_S1024x256_S256x256_S1024x256_1_0_0_1_n_n none _ _ (ix2 p q)).trans ?_
  rw [← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p q) ((contrEquiv1 dot_S1024x256_S256x256_S1024x256_1_0_0_1_n_n 256 rfl rfl).symm k) = ix2 p k := funext fun a => Fin.ext (by
    match a with
    | ⟨0, _⟩ => exact lhs_row _ _
    | ⟨1, _⟩ => exact (lhs_col _ _).trans hk)
  have er : dot_S1024x256_S256x256_S1024x256_1_0_0_1_n_n.rhsIdx (ix2 p q) ((contrEquiv1 dot_S1024x256_S256x256_S1024x256_1_0_0_1_n_n 256 rfl rfl).symm k) = ix2 k q := funext fun a => Fin.ext (by
    match a with
    | ⟨0, _⟩ => exact (rhs_row _ _).trans hk
    | ⟨1, _⟩ => exact rhs_col _ _)
  show x (dot_S1024x256_S256x256_S1024x256_1_0_0_1_n_n.lhsIdx (ix2 p q) _) * w (dot_S1024x256_S256x256_S1024x256_1_0_0_1_n_n.rhsIdx (ix2 p q) _) = _
  rw [el, er]

/-- Entry `(p, q)` of the scaled product: the column `d` of 1024 factors is spread along the rows, so the product's
    entry is multiplied by `d_p`. -/
theorem scaled_apply (x : Vec Ideal S1024x256 .f32) (w : Vec Ideal S256x256 .f32) (d : Vec Ideal S1024x1 .f32) (p : Fin 1024) (q : Fin 256) :
    k1_pay2 (F := Ideal) x w d (ix2 p q) = (∑ l : Fin 256, x (ix2 p l) * w (ix2 l q)) * d (ix2 p 0) := by
  unfold k1_pay2
  show k1_pay1 (F := Ideal) x w (ix2 p q) * broadcastTo S1024x256 (shapeCast S1024x1 d shapeCasts_S1024x1_S1024x1) broadcasts_S1024x1_S1024x256 (ix2 p q) = _
  rw [prod_apply, shapeCast_self]
  refine congrArg (_ * ·) (broadcastTo_apply d _ (ix2 p q) (ix2 p 0) fun a => ?_)
  match a with
  | ⟨0, _⟩ => rfl
  | ⟨1, _⟩ => rfl

-- the buffer contents when the stage is entered
variable (V : (c : Dev nD) → (b : Ref sig .tc) → Buf (Elt Ideal) ((c : Thread nD τ).loc b))

/-! ## Where a grid point's blocks lie in the arrays -/

/-- The block indices, decided once over the 8 grid points: point `t` takes block row `t` of the features, of the degree
    column and of the two results, and the one block of the weights; no window moves along the columns. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- There are 8 grid points. -/
theorem point_lt (t : Fin cfg1.N) : t.val < 8 := lt_of_lt_of_eq t.isLt N_1

/-- Row `p` of point `t`'s block is row `1024 t + p` of the array. -/
def row (t : Fin cfg1.N) (p : Fin 1024) : Fin 8192 := ⟨t.val * 1024 + p.val, by have := point_lt t; have := p.isLt; omega⟩

/-- The features' block at point `t`: rows `1024 t …` of the features, every column. -/
theorem feat_blk (c : Dev nD) (t : Fin cfg1.N) (p : Fin 1024) (l : Fin 256) :
    iblk1 V c 0 t (ix2 p l) = V c main_arg0 (ix2 (row t p) l) := by
  show V c main_arg0 (((cfg1.win 0).blk t).view.emb (ix2 p l)) = V c main_arg0 (ix2 (row t p) l)
  obtain ⟨e0, e1, -⟩ := block_indices t
  refine congrArg _ (funext fun a => Fin.ext ?_)
  match a with
  | ⟨0, _⟩ => show win1_0.index t (0 : Fin 2) * 1024 + 1 * p.val = t.val * 1024 + p.val; omega
  | ⟨1, _⟩ => show win1_0.index t (1 : Fin 2) * 256 + 1 * l.val = l.val; omega

/-- The weights' block at every point: the whole array. -/
theorem weight_blk (c : Dev nD) (t : Fin cfg1.N) (l : Fin 256) (q : Fin 256) :
    iblk1 V c 1 t (ix2 l q) = V c main_arg2 (ix2 l q) := by
  show V c main_arg2 (((cfg1.win 1).blk t).view.emb (ix2 l q)) = V c main_arg2 (ix2 l q)
  obtain ⟨-, -, e0, e1, -⟩ := block_indices t
  refine congrArg _ (funext fun a => Fin.ext ?_)
  match a with
  | ⟨0, _⟩ => show win1_1.index t (0 : Fin 2) * 256 + 1 * l.val = l.val; omega
  | ⟨1, _⟩ => show win1_1.index t (1 : Fin 2) * 256 + 1 * q.val = q.val; omega

/-- The degree column's block at point `t`: entries `1024 t …` of the column. -/
theorem deg_blk (c : Dev nD) (t : Fin cfg1.N) (p : Fin 1024) :
    iblk1 V c 2 t (ix2 p 0) = V c main_v0 (ix2 (row t p) 0) := by
  show V c main_v0 (((cfg1.win 2).blk t).view.emb (ix2 p 0)) = V c main_v0 (ix2 (row t p) 0)
  obtain ⟨-, -, -, -, e0, e1, -⟩ := block_indices t
  refine congrArg _ (funext fun a => Fin.ext ?_)
  match a with
  | ⟨0, _⟩ => show win1_2.index t (0 : Fin 2) * 1024 + 1 * p.val = t.val * 1024 + p.val; omega
  | ⟨1, _⟩ => show win1_2.index t (1 : Fin 2) * 1 + 1 * 0 = 0; omega

/-- Entry `(p, q)` of the first result's block at point `t` is entry `(1024 t + p, q)` of the array … -/
theorem support_emb (t : Fin cfg1.N) (p : Fin 1024) (q : Fin 256) :
    ((cfg1.win 3).blk t).view.emb (ix2 p q) = ix2 (row t p) q := by
  obtain ⟨-, -, -, -, -, -, e0, e1, -⟩ := block_indices t
  refine funext fun a => Fin.ext ?_
  match a with
  | ⟨0, _⟩ => show win1_3.index t (0 : Fin 2) * 1024 + 1 * p.val = t.val * 1024 + p.val; omega
  | ⟨1, _⟩ => show win1_3.index t (1 : Fin 2) * 256 + 1 * q.val = q.val; omega

/-- … and so is the second result's. -/
theorem scaled_emb (t : Fin cfg1.N) (p : Fin 1024) (q : Fin 256) :
    ((cfg1.win 4).blk t).view.emb (ix2 p q) = ix2 (row t p) q := by
  obtain ⟨-, -, -, -, -, -, -, -, e0, e1⟩ := block_indices t
  refine funext fun a => Fin.ext ?_
  match a with
  | ⟨0, _⟩ => show win1_4.index t (0 : Fin 2) * 1024 + 1 * p.val = t.val * 1024 + p.val; omega
  | ⟨1, _⟩ => show win1_4.index t (1 : Fin 2) * 256 + 1 * q.val = q.val; omega

/-- Point `t`'s three input blocks, as arrays of extended reals. -/
abbrev featBlk (c : Dev nD) (t : Fin cfg1.N) : Vec Ideal S1024x256 .f32 := iblk1 V c 0 t
abbrev weightBlk (c : Dev nD) (t : Fin cfg1.N) : Vec Ideal S256x256 .f32 := iblk1 V c 1 t
abbrev degBlk (c : Dev nD) (t : Fin cfg1.N) : Vec Ideal S1024x1 .f32 := iblk1 V c 2 t

/-- The product of point `t`'s blocks at `(p, q)` is the support at `(1024 t + p, q)`: the sum runs over whole rows of
    the features and whole columns of the weights, which the blocks hold. -/
theorem sup_blk (c : Dev nD) (t : Fin cfg1.N) (p : Fin 1024) (q : Fin 256) :
    (∑ l : Fin 256, featBlk V c t (ix2 p l) * weightBlk V c t (ix2 l q)) = Cert.Spec.sup (V c main_arg0) (V c main_arg2) (row t p) q := by
  unfold Cert.Spec.sup
  refine Finset.sum_congr rfl fun l _ => ?_
  exact congrArg₂ (· * ·) (feat_blk V c t p l) (weight_blk V c t l q)

/-! ## What a grid point writes back -/

/-- Point `t` writes back block `t` of the support. -/
theorem support_flushed (c : Dev nD) (t : Fin cfg1.N) :
    (dat1 (F := Ideal) V c).flushed 3 t = ((cfg1.win 3).blk t).view.read (Elt Ideal) (Cert.Spec.supArr (V c main_arg0) (V c main_arg2)) := by
  show (cfg1.win 3).cut (grid1.coords t) ((dat1 (F := Ideal) V c).after 3 t) = _
  rw [after1_3]
  unfold out1_3
  rw [View.canon_unit_zero zero_offsets]
  simp only [View.ld_unit_zero (S := S1024x256) zero_offsets, View.ld_unit_zero (S := S256x256) zero_offsets]
  funext j
  obtain ⟨p, q, rfl⟩ : ∃ (p : Fin 1024) (q : Fin 256), j = ix2 p q := ⟨j 0, j 1, eq_ix2 j⟩
  show k1_pay1 (F := Ideal) (featBlk V c t) (weightBlk V c t) (ix2 p q)
    = Cert.Spec.supArr (V c main_arg0) (V c main_arg2) (((cfg1.win 3).blk t).view.emb (ix2 p q))
  rw [support_emb]
  exact (prod_apply _ _ p q).trans (sup_blk V c t p q)

/-- Point `t` writes back block `t` of the scaled support. -/
theorem scaled_flushed (c : Dev nD) (t : Fin cfg1.N) :
    (dat1 (F := Ideal) V c).flushed 4 t = ((cfg1.win 4).blk t).view.read (Elt Ideal) (Cert.Spec.scaledArr (V c main_arg0) (V c main_arg2) (V c main_v0)) := by
  show (cfg1.win 4).cut (grid1.coords t) ((dat1 (F := Ideal) V c).after 4 t) = _
  rw [after1_4]
  unfold out1_4
  rw [View.canon_unit_zero zero_offsets]
  simp only [View.ld_unit_zero (S := S1024x256) zero_offsets, View.ld_unit_zero (S := S256x256) zero_offsets, View.ld_unit_zero (S := S1024x1) zero_offsets]
  funext j
  obtain ⟨p, q, rfl⟩ : ∃ (p : Fin 1024) (q : Fin 256), j = ix2 p q := ⟨j 0, j 1, eq_ix2 j⟩
  show k1_pay2 (F := Ideal) (featBlk V c t) (weightBlk V c t) (degBlk V c t) (ix2 p q)
    = Cert.Spec.scaledArr (V c main_arg0) (V c main_arg2) (V c main_v0) (((cfg1.win 4).blk t).view.emb (ix2 p q))
  rw [scaled_emb]
  refine (scaled_apply _ _ _ p q).trans ?_
  exact congrArg₂ (· * ·) (sup_blk V c t p q) (deg_blk V c t p)

/-! ## The 8 blocks tile each result -/

/-- An entry of the first result is in point `t`'s block iff each coordinate is in the block's range on its axis. -/
theorem mem_support_blk (t : Fin cfg1.N) (i : S8192x256.Idx) :
    i ∈ ((cfg1.win 3).blk t).view.set ↔ ∀ a : Fin 2, win1_3.index t a * S1024x256.size a ≤ (i a).val ∧ (i a).val < win1_3.index t a * S1024x256.size a + S1024x256.size a := by
  show i ∈ ((View.whole main_v1_0).slice (win1_3.rect t)).set ↔ _
  rw [View.set_slice_whole, Rect.mem_set_unit]
  exact Iff.rfl

/-- The same for the second result. -/
theorem mem_scaled_blk (t : Fin cfg1.N) (i : S8192x256.Idx) :
    i ∈ ((cfg1.win 4).blk t).view.set ↔ ∀ a : Fin 2, win1_4.index t a * S1024x256.size a ≤ (i a).val ∧ (i a).val < win1_4.index t a * S1024x256.size a + S1024x256.size a := by
  show i ∈ ((View.whole main_v1_1).slice (win1_4.rect t)).set ↔ _
  rw [View.set_slice_whole, Rect.mem_set_unit]
  exact Iff.rfl

/-- The point whose block holds row `r`: `r / 1024`. -/
def pointOf (i : S8192x256.Idx) : Fin cfg1.N := ⟨(i 0).val / 1024, lt_of_lt_of_eq (by have := idx2_lt0 i; omega) N_1.symm⟩

/-- Every entry of the first result is in the block of the point `row / 1024`, which writes back. -/
theorem support_cover (i : S8192x256.Idx) :
    ∃ t : Fin cfg1.N, (cfg1.win 3).flush t = true ∧ i ∈ ((cfg1.win 3).blk t).view.set := by
  refine ⟨pointOf i, flush1_3 _, ?_⟩
  rw [mem_support_blk]
  obtain ⟨-, -, -, -, -, -, e0, e1, -⟩ := block_indices (pointOf i)
  have ht : (pointOf i).val = (i 0).val / 1024 := rfl
  have h0 := idx2_lt0 i
  have h1 := idx2_lt1 i
  intro a
  match a with
  | ⟨0, _⟩ => show win1_3.index (pointOf i) (0 : Fin 2) * 1024 ≤ (i 0).val ∧ (i 0).val < win1_3.index (pointOf i) (0 : Fin 2) * 1024 + 1024; omega
  | ⟨1, _⟩ => show win1_3.index (pointOf i) (1 : Fin 2) * 256 ≤ (i 1).val ∧ (i 1).val < win1_3.index (pointOf i) (1 : Fin 2) * 256 + 256; omega

/-- And so is every entry of the second result. -/
theorem scaled_cover (i : S8192x256.Idx) :
    ∃ t : Fin cfg1.N, (cfg1.win 4).flush t = true ∧ i ∈ ((cfg1.win 4).blk t).view.set := by
  refine ⟨pointOf i, flush1_4 _, ?_⟩
  rw [mem_scaled_blk]
  obtain ⟨-, -, -, -, -, -, -, -, e0, e1⟩ := block_indices (pointOf i)
  have ht : (pointOf i).val = (i 0).val / 1024 := rfl
  have h0 := idx2_lt0 i
  have h1 := idx2_lt1 i
  intro a
  match a with
  | ⟨0, _⟩ => show win1_4.index (pointOf i) (0 : Fin 2) * 1024 ≤ (i 0).val ∧ (i 0).val < win1_4.index (pointOf i) (0 : Fin 2) * 1024 + 1024; omega
  | ⟨1, _⟩ => show win1_4.index (pointOf i) (1 : Fin 2) * 256 ≤ (i 1).val ∧ (i 1).val < win1_4.index (pointOf i) (1 : Fin 2) * 256 + 256; omega

/-! ## The two arrays the stage leaves -/

/-- After the second stage its first result array holds the support `x · w` of the features `x` and the weights `w`
    the stage found: each grid point writes the 1024 rows of its block, and the 8 blocks tile the array. -/
theorem final_support (c : Dev nD) :
    (dat1 (F := Ideal) V c).arrAt 3 cfg1.N = Cert.Spec.supArr (V c main_arg0) (V c main_arg2) := by
  exact (dat1 (F := Ideal) V c).arrAt_eq_of_cover 3 (Cert.Spec.supArr (V c main_arg0) (V c main_arg2))
    (fun t _ => support_flushed V c t) support_cover

/-- After the second stage its second result array holds the support with row `j` scaled by entry `j` of the degree
    column the stage found. -/
theorem final_scaled (c : Dev nD) :
    (dat1 (F := Ideal) V c).arrAt 4 cfg1.N = Cert.Spec.scaledArr (V c main_arg0) (V c main_arg2) (V c main_v0) := by
  exact (dat1 (F := Ideal) V c).arrAt_eq_of_cover 4 (Cert.Spec.scaledArr (V c main_arg0) (V c main_arg2) (V c main_v0))
    (fun t _ => scaled_flushed V c t) scaled_cover

end Cert.KernelIdeal.Stage1

end
-- ==== Proof.Region2.lean ====
/- The third stage (the aggregation): the array it leaves, as a function of the arrays it reads. -/
import proofs.«149356_j79121887527623_1_alg».proof.Proof.Gen.KernelIdeal.Frame
import proofs.«149356_j79121887527623_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stage2

open Cert.KernelIdeal Cert.KernelIdeal.Gen Idealize.ShloMosaic Idealize.ShloMosaic.TcCoe Idealize.SL.Sem
open Idealize.ShloMosaic.Pipeline (Dat)
open Idealize.ShloMosaic.ValueIdx

-- the buffer contents when the stage is entered
variable (V : (c : Dev nD) → (b : Ref sig .tc) → Buf (Elt Ideal) ((c : Thread nD τ).loc b))

/-! ## The block's arithmetic at an index -/

/-- The product's left operand is read at the result's row … -/
theorem lhs_dot_0 (i : S256x256.Idx) (q : dot_S256x8192_S8192x256_S256x256_1_0_0_1_n_n.contr.Idx) :
    (dot_S256x8192_S8192x256_S256x256_1_0_0_1_n_n.lhsIdx i q 0).val = (i 0).val := by
  unfold DotDims.lhsIdx
  rw [dif_neg (show ¬(0 : Fin S256x8192.rank) ∈ dot_S256x8192_S8192x256_S256x256_1_0_0_1_n_n.lhsBatch by decide), dif_pos (show (0 : Fin S256x8192.rank) ∈ dot_S256x8192_S8192x256_S256x256_1_0_0_1_n_n.lhsNonContracting by decide)]
  rfl
/-- … and the summed column, -/
theorem lhs_dot_1 (i : S256x256.Idx) (q : dot_S256x8192_S8192x256_S256x256_1_0_0_1_n_n.contr.Idx) :
    (dot_S256x8192_S8192x256_S256x256_1_0_0_1_n_n.lhsIdx i q 1).val = (q ⟨0, by decide⟩).val :=
  dot_S256x8192_S8192x256_S256x256_1_0_0_1_n_n.lhsIdx_val_of_single rfl i q
/-- the right operand at the summed row … -/
theorem rhs_dot_0 (i : S256x256.Idx) (q : dot_S256x8192_S8192x256_S256x256_1_0_0_1_n_n.contr.Idx) :
    (dot_S256x8192_S8192x256_S256x256_1_0_0_1_n_n.rhsIdx i q 0).val = (q ⟨0, by decide⟩).val :=
  dot_S256x8192_S8192x256_S256x256_1_0_0_1_n_n.rhsIdx_val_of_single rfl i q
/-- … and the result's column. -/
theorem rhs_dot_1 (i : S256x256.Idx) (q : dot_S256x8192_S8192x256_S256x256_1_0_0_1_n_n.contr.Idx) :
    (dot_S256x8192_S8192x256_S256x256_1_0_0_1_n_n.rhsIdx i q 1).val = (i 1).val := by
  unfold DotDims.rhsIdx
  rw [dif_neg (show ¬(1 : Fin S8192x256.rank) ∈ dot_S256x8192_S8192x256_S256x256_1_0_0_1_n_n.rhsBatch by decide), dif_pos (show (1 : Fin S8192x256.rank) ∈ dot_S256x8192_S8192x256_S256x256_1_0_0_1_n_n.rhsNonContracting by decide)]
  rfl

/-- The block product into the zero array, at `(p, q)`: `Σ_j y0_pj · y1_jq`. -/
theorem matmul_at (y0 : FVec Ideal S256x8192 .bf16) (y1 : FVec Ideal S8192x256 .bf16) (p q : Fin 256) :
    matmul dot_S256x8192_S8192x256_S256x256_1_0_0_1_n_n none y0 y1 (constant (F := Ideal) S256x256 .f32 0x00000000#32) (ix2 p q)
      = ∑ j : Fin 8192, y0 (ix2 p j) * y1 (ix2 j q) := by
  show FloatOps.matmul dot_S256x8192_S8192x256_S256x256_1_0_0_1_n_n none y0 y1 (constant (F := Ideal) S256x256 .f32 0x00000000#32) (ix2 p q) = _
  rw [Ideal.matmul_constant_zero_apply, ← Equiv.sum_comp (contrEquiv1 dot_S256x8192_S8192x256_S256x256_1_0_0_1_n_n 8192 rfl rfl).symm]
  refine Finset.sum_congr rfl fun k _ => ?_
  have hk := contrEquiv1_symm_val dot_S256x8192_S8192x256_S256x256_1_0_0_1_n_n 8192 rfl rfl k
  have el : dot_S256x8192_S8192x256_S256x256_1_0_0_1_n_n.lhsIdx (ix2 p q) ((contrEquiv1 dot_S256x8192_S8192x256_S256x256_1_0_0_1_n_n 8192 rfl rfl).symm k) = ix2 p k := funext fun a => Fin.ext (by
    match a with
    | ⟨0, _⟩ => exact lhs_dot_0 _ _
    | ⟨1, _⟩ => exact (lhs_dot_1 _ _).trans hk)
  have er : dot_S256x8192_S8192x256_S256x256_1_0_0_1_n_n.rhsIdx (ix2 p q) ((contrEquiv1 dot_S256x8192_S8192x256_S256x256_1_0_0_1_n_n 8192 rfl rfl).symm k) = ix2 k q := funext fun a => Fin.ext (by
    match a with
    | ⟨0, _⟩ => exact (rhs_dot_0 _ _).trans hk
    | ⟨1, _⟩ => exact rhs_dot_1 _ _)
  rw [el, er]

/-- A column spread over the 256 columns reads its row's entry. -/
theorem col_at (x : FVec Ideal S256x1 .f32) (p q : Fin 256) :
    broadcastTo S256x256 x broadcasts_S256x1_S256x256 (ix2 p q) = x (ix2 p 0) :=
  broadcastTo_apply x broadcasts_S256x1_S256x256 (ix2 p q) (ix2 p 0) (fun a => by
    match a with
    | ⟨0, _⟩ => rfl
    | ⟨1, _⟩ => rfl)

/-- A row spread over the 256 rows reads its column's entry. -/
theorem row_at (x : FVec Ideal S1x256 .f32) (p q : Fin 256) :
    broadcastTo S256x256 x broadcasts_S1x256_S256x256 (ix2 p q) = x (ix2 0 q) :=
  broadcastTo_apply x broadcasts_S1x256_S256x256 (ix2 p q) (ix2 0 q) (fun a => by
    match a with
    | ⟨0, _⟩ => rfl
    | ⟨1, _⟩ => rfl)

/-- The block the body stores, at `(p, q)`: `max (d_p · Σ_j a_pj · ss_jq + (d_p · d_p) · s_pq + r_q) 0` of the blocks it loaded. -/
theorem pay_at (a : Vec Ideal S256x8192 .f32) (ss : Vec Ideal S8192x256 .f32) (d : Vec Ideal S256x1 .f32)
    (s : Vec Ideal S256x256 .f32) (r : Vec Ideal S1x256 .f32) (p q : Fin 256) :
    k2_pay1 (F := Ideal) a ss d s r (ix2 p q)
      = max (d (ix2 p 0) * (∑ j : Fin 8192, a (ix2 p j) * ss (ix2 j q)) + (d (ix2 p 0) * d (ix2 p 0)) * s (ix2 p q) + r (ix2 0 q)) 0 := by
  unfold k2_pay1
  simp only [shapeCast_self]
  rw [maximumf_apply, addf_apply, addf_apply, mulf_apply, mulf_apply, broadcast_apply,
    show (FloatOps.ofBits FTy.f32 0x00000000#32 : Ideal FTy.f32) = (0 : EReal) from Ideal.ofBits_zero_f32,
    row_at, col_at, col_at, matmul_at, mulf_apply]
  rfl

/-! ## Each grid point's blocks -/

theorem hz : (![0, 0] : Fin 2 → Nat) = fun _ => 0 := funext fun a => by fin_cases a <;> rfl

/-- The index maps, decided over the 32 grid points: the adjacency's, the support's, the degree column's and the result's
    blocks are at block row `t`; the scaled support and the bias row are whole arrays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 ∧ t.val < 32 :=
  (by decide +kernel : ∀ t : Fin grid2.N, _)

/-- Row `p` of grid point `t`'s blocks is row `256 · t + p` of the arrays. -/
def rowOf (t : Fin cfg2.N) (p : Fin 256) : Fin 8192 :=
  ⟨t.val * 256 + p.val, by have := (idx_facts t).2.2.2.2.2.2.2.2.2.2.2.2; have := p.isLt; omega⟩

theorem rowOf_val (t : Fin cfg2.N) (p : Fin 256) : (rowOf t p).val = t.val * 256 + p.val := rfl

/-- The adjacency block at point `t`: rows `256 t …`, every column. -/
theorem adj_at (c : Dev nD) (t : Fin cfg2.N) (p : Fin 256) (j : Fin 8192) :
    iblk2 V c 0 t (ix2 p j) = V c main_arg1 (ix2 (rowOf t p) j) := by
  obtain ⟨e0, e1, -⟩ := idx_facts t
  show V c main_arg1 (((cfg2.win 0).blk t).view.emb (ix2 p j)) = V c main_arg1 (ix2 (rowOf t p) j)
  refine congrArg (V c main_arg1) (funext fun a => Fin.ext ?_)
  match a with
  | ⟨0, _⟩ => show win2_0.index t (0 : Fin 2) * 256 + 1 * p.val = t.val * 256 + p.val; omega
  | ⟨1, _⟩ => show win2_0.index t (1 : Fin 2) * 8192 + 1 * j.val = j.val; omega

/-- The scaled support's block is the whole array at every point. -/
theorem ssup_at (c : Dev nD) (t : Fin cfg2.N) (j : Fin 8192) (q : Fin 256) :
    iblk2 V c 1 t (ix2 j q) = V c main_v1_1 (ix2 j q) := by
  obtain ⟨-, -, e0, e1, -⟩ := idx_facts t
  show V c main_v1_1 (((cfg2.win 1).blk t).view.emb (ix2 j q)) = V c main_v1_1 (ix2 j q)
  refine congrArg (V c main_v1_1) (funext fun a => Fin.ext ?_)
  match a with
  | ⟨0, _⟩ => show win2_1.index t (0 : Fin 2) * 8192 + 1 * j.val = j.val; omega
  | ⟨1, _⟩ => show win2_1.index t (1 : Fin 2) * 256 + 1 * q.val = q.val; omega

/-- The support's block at point `t`: rows `256 t …`. -/
theorem sup_at (c : Dev nD) (t : Fin cfg2.N) (p q : Fin 256) :
    iblk2 V c 2 t (ix2 p q) = V c main_v1_0 (ix2 (rowOf t p) q) := by
  obtain ⟨-, -, -, -, e0, e1, -⟩ := idx_facts t
  show V c main_v1_0 (((cfg2.win 2).blk t).view.emb (ix2 p q)) = V c main_v1_0 (ix2 (rowOf t p) q)
  refine congrArg (V c main_v1_0) (funext fun a => Fin.ext ?_)
  match a with
  | ⟨0, _⟩ => show win2_2.index t (0 : Fin 2) * 256 + 1 * p.val = t.val * 256 + p.val; omega
  | ⟨1, _⟩ => show win2_2.index t (1 : Fin 2) * 256 + 1 * q.val = q.val; omega

/-- The degree column's block at point `t`: rows `256 t …`. -/
theorem deg_at (c : Dev nD) (t : Fin cfg2.N) (p : Fin 256) :
    iblk2 V c 3 t (ix2 p 0) = V c main_v0 (ix2 (rowOf t p) 0) := by
  obtain ⟨-, -, -, -, -, -, e0, e1, -⟩ := idx_facts t
  show V c main_v0 (((cfg2.win 3).blk t).view.emb (ix2 p 0)) = V c main_v0 (ix2 (rowOf t p) 0)
  refine congrArg (V c main_v0) (funext fun a => Fin.ext ?_)
  match a with
  | ⟨0, _⟩ => show win2_3.index t (0 : Fin 2) * 256 + 1 * p.val = t.val * 256 + p.val; omega
  | ⟨1, _⟩ => show win2_3.index t (1 : Fin 2) * 1 + 1 * 0 = 0; omega

/-- The bias row's block is the whole row at every point. -/
theorem bias_at (c : Dev nD) (t : Fin cfg2.N) (q : Fin 256) :
    iblk2 V c 4 t (ix2 0 q) = V c main_v2 (ix2 0 q) := by
  obtain ⟨-, -, -, -, -, -, -, -, e0, e1, -⟩ := idx_facts t
  show V c main_v2 (((cfg2.win 4).blk t).view.emb (ix2 0 q)) = V c main_v2 (ix2 0 q)
  refine congrArg (V c main_v2) (funext fun a => Fin.ext ?_)
  match a with
  | ⟨0, _⟩ => show win2_4.index t (0 : Fin 2) * 1 + 1 * 0 = 0; omega
  | ⟨1, _⟩ => show win2_4.index t (1 : Fin 2) * 256 + 1 * q.val = q.val; omega

/-- The result's block at point `t`: rows `256 t …`. -/
theorem out_at (t : Fin cfg2.N) (p q : Fin 256) :
    ((cfg2.win 5).blk t).view.emb (ix2 p q) = ix2 (rowOf t p) q := by
  obtain ⟨-, -, -, -, -, -, -, -, -, -, e0, e1, -⟩ := idx_facts t
  refine funext fun a => Fin.ext ?_
  match a with
  | ⟨0, _⟩ => show win2_5.index t (0 : Fin 2) * 256 + 1 * p.val = t.val * 256 + p.val; omega
  | ⟨1, _⟩ => show win2_5.index t (1 : Fin 2) * 256 + 1 * q.val = q.val; omega

/-- What grid point `t` writes back is block `t` of the aggregation of the arrays the stage found. -/
theorem flushed_eq (c : Dev nD) (t : Fin cfg2.N) :
    (dat2 V c).flushed 5 t = ((cfg2.win 5).blk t).view.read (Elt Ideal)
      (Cert.Spec.aggArr (V c main_arg1) (V c main_v1_1) (V c main_v1_0) (V c main_v0) (V c main_v2)) := by
  show (cfg2.win 5).cut (grid2.coords t) ((dat2 V c).after 5 t) = _
  rw [after2_5]
  unfold out2_5
  rw [View.canon_unit_zero hz]
  simp only [View.ld_unit_zero (S := S256x8192) hz, View.ld_unit_zero (S := S8192x256) hz, View.ld_unit_zero (S := S256x1) hz,
    View.ld_unit_zero (S := S256x256) hz, View.ld_unit_zero (S := S1x256) hz]
  funext j
  obtain ⟨p, q, rfl⟩ : ∃ (p : Fin 256) (q : Fin 256), j = ix2 p q := ⟨j 0, j 1, eq_ix2 j⟩
  show k2_pay1 (F := Ideal) (iblk2 V c 0 t) (iblk2 V c 1 t) (iblk2 V c 3 t) (iblk2 V c 2 t) (iblk2 V c 4 t) (ix2 p q)
    = Cert.Spec.aggArr (V c main_arg1) (V c main_v1_1) (V c main_v1_0) (V c main_v0) (V c main_v2) (((cfg2.win 5).blk t).view.emb (ix2 p q))
  rw [pay_at, out_at, deg_at, sup_at, bias_at]
  simp only [adj_at, ssup_at]
  rfl

/-! ## The blocks tile the array -/

/-- An index of the result array is in point `t`'s block iff each coordinate is in the block's range on its axis. -/
theorem mem_blk (t : Fin cfg2.N) (i : S8192x256.Idx) :
    i ∈ ((cfg2.win 5).blk t).view.set ↔ ∀ a : Fin 2, win2_5.index t a * S256x256.size a ≤ (i a).val ∧ (i a).val < win2_5.index t a * S256x256.size a + S256x256.size a := by
  show i ∈ ((View.whole main_v3).slice (win2_5.rect t)).set ↔ _
  rw [View.set_slice_whole, Rect.mem_set_unit]
  exact Iff.rfl

/-- Row `r` of the result is written by grid point `r / 256`. -/
theorem cover (i : S8192x256.Idx) :
    ∃ t : Fin cfg2.N, (cfg2.win 5).flush t = true ∧ i ∈ ((cfg2.win 5).blk t).view.set := by
  have hi0 : (i 0).val < 8192 := (i 0).isLt
  have hi1 : (i 1).val < 256 := (i 1).isLt
  have hN : (i 0).val / 256 < cfg2.N := lt_of_lt_of_eq (by omega : (i 0).val / 256 < 32) N_2.symm
  refine ⟨⟨(i 0).val / 256, hN⟩, flush2_5 _, ?_⟩
  obtain ⟨-, -, -, -, -, -, -, -, -, -, e0, e1, -⟩ := idx_facts ⟨(i 0).val / 256, hN⟩
  have e0' : win2_5.index ⟨(i 0).val / 256, hN⟩ (0 : Fin 2) = (i 0).val / 256 := e0
  rw [mem_blk]
  intro a
  match a with
  | ⟨0, _⟩ => show win2_5.index ⟨(i 0).val / 256, hN⟩ (0 : Fin 2) * 256 ≤ (i 0).val ∧ (i 0).val < win2_5.index ⟨(i 0).val / 256, hN⟩ (0 : Fin 2) * 256 + 256; omega
  | ⟨1, _⟩ => show win2_5.index ⟨(i 0).val / 256, hN⟩ (1 : Fin 2) * 256 ≤ (i 1).val ∧ (i 1).val < win2_5.index ⟨(i 0).val / 256, hN⟩ (1 : Fin 2) * 256 + 256; omega

/-- After the third stage its result array holds, at `(i, k)`,
    `max (d_i · Σ_j a_ij · ss_jk + (d_i · d_i) · s_ik + r_k) 0` of the adjacency `a`, the scaled support `ss`, the
    support `s`, the degree column `d` and the bias row `r` the stage found: each grid point writes the 256 rows of its
    block, and the 32 blocks tile the array. -/
theorem final (c : Dev nD) :
    (dat2 (F := Ideal) V c).arrAt 5 cfg2.N
      = Cert.Spec.aggArr (V c main_arg1) (V c main_v1_1) (V c main_v1_0) (V c main_v0) (V c main_v2) :=
  (dat2 (F := Ideal) V c).arrAt_eq_of_cover 5
    (Cert.Spec.aggArr (V c main_arg1) (V c main_v1_1) (V c main_v1_0) (V c main_v0) (V c main_v2))
    (fun t _ => flushed_eq V c t) cover

end Cert.KernelIdeal.Stage2

end
-- ==== Proof.KernelValue.lean ====
/-
  The three-stage program's result as one function of its arguments.

  The run's buffer contents are a fold through the program: the first stage writes the degree column, the second the
  support and the scaled support, a reshape lays the bias out as a row, the third stage writes the result. Reading
  the fold back at each array a stage reads — an argument is never written, an intermediate array is written by
  exactly one stage and kept by the later ones — gives every stage's inputs as functions of the arguments, and the
  three stage lemmas compose to `Spec.kerOut`.
-/
import proofs.«149356_j79121887527623_1_alg».proof.Proof.Gen.KernelIdeal.Frame
import proofs.«149356_j79121887527623_1_alg».proof.Proof.Spec
import proofs.«149356_j79121887527623_1_alg».proof.Proof.Region0
import proofs.«149356_j79121887527623_1_alg».proof.Proof.Region1
import proofs.«149356_j79121887527623_1_alg».proof.Proof.Region2
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-! ## After the first stage -/

/-- The degree column after the first stage. -/
theorem W1_deg (c : Dev nD) :
    W1 m ρ c (Proc.devRef .tc main_v0) = Cert.Spec.degArr (m ((c : Thread nD τ).loc main_arg1)) :=
  (W1_arr m ρ c 1).trans (Stage0.final (V0 m ρ) c)

/-- The first stage writes none of the features, the weights and the bias; it only reads the adjacency. -/
theorem W1_arg0 (c : Dev nD) : W1 m ρ c (Proc.devRef .tc main_arg0) = m ((c : Thread nD τ).loc main_arg0) :=
  W1_of_ne m ρ c main_arg0 (by decide)
theorem W1_arg2 (c : Dev nD) : W1 m ρ c (Proc.devRef .tc main_arg2) = m ((c : Thread nD τ).loc main_arg2) :=
  W1_of_ne m ρ c main_arg2 (by decide)
theorem W1_arg3 (c : Dev nD) : W1 m ρ c (Proc.devRef .tc main_arg3) = m ((c : Thread nD τ).loc main_arg3) :=
  W1_of_ne m ρ c main_arg3 (by decide)
theorem W1_arg1 (c : Dev nD) : W1 m ρ c (Proc.devRef .tc main_arg1) = m ((c : Thread nD τ).loc main_arg1) :=
  (W1_arr m ρ c 0).trans (((dat0 (V0 m ρ) c).arrAt_in 0 rfl _).trans (A_eq0 (V0 m ρ) c 0))

/-! ## After the second stage -/

/-- The support after the second stage. -/
theorem W2_support (c : Dev nD) :
    W2 m ρ c (Proc.devRef .tc main_v1_0)
      = Cert.Spec.supArr (m ((c : Thread nD τ).loc main_arg0)) (m ((c : Thread nD τ).loc main_arg2)) := by
  refine (W2_arr m ρ c 3).trans ((Stage1.final_support (V1 m ρ) c).trans ?_)
  show Cert.Spec.supArr (W1 m ρ c (Proc.devRef .tc main_arg0)) (W1 m ρ c (Proc.devRef .tc main_arg2)) = _
  rw [W1_arg0, W1_arg2]

/-- The scaled support after the second stage. -/
theorem W2_scaled (c : Dev nD) :
    W2 m ρ c (Proc.devRef .tc main_v1_1)
      = Cert.Spec.scaledArr (m ((c : Thread nD τ).loc main_arg0)) (m ((c : Thread nD τ).loc main_arg2))
          (Cert.Spec.degArr (m ((c : Thread nD τ).loc main_arg1))) := by
  refine (W2_arr m ρ c 4).trans ((Stage1.final_scaled (V1 m ρ) c).trans ?_)
  show Cert.Spec.scaledArr (W1 m ρ c (Proc.devRef .tc main_arg0)) (W1 m ρ c (Proc.devRef .tc main_arg2))
    (W1 m ρ c (Proc.devRef .tc main_v0)) = _
  rw [W1_arg0, W1_arg2, W1_deg]

/-- The second stage reads the degree column and leaves it. -/
theorem W2_deg (c : Dev nD) :
    W2 m ρ c (Proc.devRef .tc main_v0) = Cert.Spec.degArr (m ((c : Thread nD τ).loc main_arg1)) :=
  (W2_arr m ρ c 2).trans (((dat1 (V1 m ρ) c).arrAt_in 2 rfl _).trans ((A_eq1 (V1 m ρ) c 2).trans (W1_deg m ρ c)))

/-- The second stage touches neither the adjacency nor the bias. -/
theorem W2_arg1 (c : Dev nD) : W2 m ρ c (Proc.devRef .tc main_arg1) = m ((c : Thread nD τ).loc main_arg1) :=
  (W2_of_ne m ρ c main_arg1 (by decide)).trans (W1_arg1 m ρ c)
theorem W2_arg3 (c : Dev nD) : W2 m ρ c (Proc.devRef .tc main_arg3) = m ((c : Thread nD τ).loc main_arg3) :=
  (W2_of_ne m ρ c main_arg3 (by decide)).trans (W1_arg3 m ρ c)

/-! ## After the reshape of the bias -/

/-- The reshape writes the bias row only. -/
theorem W3_of_ne (c : Dev nD) (b : Ref sig .tc) (hb : b ≠ main_v2) :
    W3 m ρ c (Proc.devRef .tc b) = W2 m ρ c (Proc.devRef .tc b) := by
  show StableHlo.after hostOps2 (W2 m ρ c) (Proc.devRef .tc b) = _
  simp only [hostOps2, StableHlo.after_cons, StableHlo.after_nil]
  exact StableHlo.reshape_result_ne _ _ _ _ _ _ _ hb

/-- The bias row: entry `(0, k)` is the bias's entry `k`. -/
theorem W3_bias (c : Dev nD) :
    (W3 m ρ c (Proc.devRef .tc main_v2) : S1x256.Idx → EReal)
      = fun i => (m ((c : Thread nD τ).loc main_arg3) : S256.Idx → EReal) (ix1 (i 1)) := by
  show StableHlo.after hostOps2 (W2 m ρ c) (Proc.devRef .tc main_v2) = _
  simp only [hostOps2, StableHlo.after_cons, StableHlo.after_nil]
  rw [StableHlo.reshape_result, W2_arg3]
  funext i
  obtain ⟨u, k, rfl⟩ : ∃ (u : Fin 1) (k : Fin 256), i = ix2 u k := ⟨i 0, i 1, eq_ix2 i⟩
  exact shapeCast_a_1a_apply _ _ u k

/-! ## After the third stage -/

/-- The result array after the run is `Spec.kerOut` of the four arguments. -/
theorem W4_result (c : Dev nD) :
    W4 m ρ c (Proc.devRef .tc main_v3)
      = Cert.Spec.kerOut (m ((c : Thread nD τ).loc main_arg1)) (m ((c : Thread nD τ).loc main_arg0))
          (m ((c : Thread nD τ).loc main_arg2)) (m ((c : Thread nD τ).loc main_arg3)) := by
  refine (W4_arr m ρ c 5).trans ((Stage2.final (V3 m ρ) c).trans ?_)
  show Cert.Spec.aggArr (W3 m ρ c (Proc.devRef .tc main_arg1)) (W3 m ρ c (Proc.devRef .tc main_v1_1))
    (W3 m ρ c (Proc.devRef .tc main_v1_0)) (W3 m ρ c (Proc.devRef .tc main_v0)) (W3 m ρ c (Proc.devRef .tc main_v2)) = _
  rw [W3_of_ne m ρ c main_arg1 (by decide), W3_of_ne m ρ c main_v1_1 (by decide), W3_of_ne m ρ c main_v1_0 (by decide),
    W3_of_ne m ρ c main_v0 (by decide), W2_arg1, W2_scaled, W2_support, W2_deg, W3_bias]
  rfl

end Cert.KernelIdeal.Whole

end
-- ==== Proof.RefValue.lean ====
/- The reference's result, read one operation at a time, is `Cert.Spec.refOut` of its arguments. -/
import proofs.«149356_j79121887527623_1_alg».proof.Proof.Gen.ReferenceIdeal.Read
import proofs.«149356_j79121887527623_1_alg».proof.Proof.Spec
import Idealize.ShloMosaic.Lib.ValueIdx
import Idealize.ShloMosaic.Lib.IdealHost
import Idealize.ShloMosaic.Lib.StableHlo.Predicate
import Idealize.ShloMosaic.PureOps.Ideal.Laws

noncomputable section

namespace Cert.ReferenceIdeal.RefValue

open Cert.ReferenceIdeal Cert.ReferenceIdeal.Gen Cert.ReferenceIdeal.Read Idealize.ShloMosaic
open Idealize.ShloMosaic.ValueIdx

/-- Two words below 8192 are equal exactly when the numbers are. -/
theorem ofNat_inj_small (p q : Fin 8192) : BitVec.ofNat 32 p.val = BitVec.ofNat 32 q.val ↔ p = q := by
  constructor
  · intro h
    have h' := congrArg BitVec.toNat h
    simp only [BitVec.toNat_ofNat] at h'
    have hp := p.isLt
    have hq := q.isLt
    apply Fin.ext
    omega
  · rintro rfl
    rfl

/-- The identity matrix's entry: the row's number plus zero compared with the column's, read as a number. -/
theorem eye_entry (p q : Fin 8192) : val_main_v5 (F := Ideal) (ix2 p q) = Cert.Spec.eye p q := by
  rw [val_main_v5_apply, val_main_v4_apply, val_main_v3_apply, val_main_v0_apply, val_main_v2_apply,
    val_main_c_apply, val_main_v1_apply]
  show (((IntOp.cmpi .eq (IntOp.addi (BitVec.ofNat 32 p.val) 0#32) (BitVec.ofNat 32 q.val)).toNat : ℝ) : EReal) = _
  unfold Cert.Spec.eye
  have h0 : IntOp.addi (BitVec.ofNat 32 p.val) 0#32 = BitVec.ofNat 32 p.val := by
    unfold IntOp.addi
    exact BitVec.add_zero _
  rw [h0]
  by_cases h : p = q
  · subst h
    rw [if_pos rfl, StableHlo.Predicate.cmpi_eq_iff.mpr rfl]
    simp
  · rw [if_neg h]
    have hne : ¬ BitVec.ofNat 32 p.val = BitVec.ofNat 32 q.val := fun e => h ((ofNat_inj_small p q).mp e)
    have : IntOp.cmpi .eq (BitVec.ofNat 32 p.val) (BitVec.ofNat 32 q.val) = 0#1 := by
      have hb : (BitVec.ofNat 32 p.val == BitVec.ofNat 32 q.val) = false := beq_eq_false_iff_ne.mpr hne
      show BitVec.ofBool (BitVec.ofNat 32 p.val == BitVec.ofNat 32 q.val) = 0#1
      rw [hb]
      rfl
    rw [this]
    simp

/-- The adjacency with self-loops, entry by entry. -/
theorem loops_entry (a : FVec Ideal S8192x8192 .f32) (p q : Fin 8192) :
    val_main_v6 (F := Ideal) a (ix2 p q) = a (ix2 p q) + Cert.Spec.eye p q := by
  rw [val_main_v6_apply, Ideal.addf_def, eye_entry]

/-- A row's sum of the adjacency with self-loops: the sum starts from the pattern of zero. -/
theorem rsum_entry (a : FVec Ideal S8192x8192 .f32) (p : Fin 8192) :
    val_main_v7 (F := Ideal) a (ix1 p) = Cert.Spec.rsum a p := by
  have e : ∀ k : Fin 8192, idx_main_v7 (ix1 p) k = ix2 p k := fun k =>
    funext fun d => Fin.ext (by match d with | ⟨0, _⟩ => rfl | ⟨1, _⟩ => rfl)
  rw [val_main_v7_apply, val_main_cst_apply, Ideal.ofBits_def, Ideal.ofBits_zero_f32, zero_add]
  unfold Cert.Spec.rsum
  refine Finset.sum_congr rfl fun k _ => ?_
  rw [e k, loops_entry]

/-- A row's degree factor: one over the square root of the row's sum. -/
theorem rdeg_entry (a : FVec Ideal S8192x8192 .f32) (p : Fin 8192) :
    val_main_v10 (F := Ideal) a (ix1 p) = Cert.Spec.rdeg a p := by
  rw [val_main_v10_apply, val_main_v9_apply, val_main_cst_0_apply, val_main_v8_apply, Ideal.hostDivf_def,
    Ideal.hostUnary_sqrt_def, Ideal.ofBits_def, Ideal.ofBits_one_f32, rsum_entry]
  rfl

/-- The normalized adjacency, entry by entry: the first broadcast reads the degree factor at the row, the second at
    the column. -/
theorem norm_entry (a : FVec Ideal S8192x8192 .f32) (p q : Fin 8192) :
    val_main_v16 (F := Ideal) a (ix2 p q)
      = ((a (ix2 p q) + Cert.Spec.eye p q) * Cert.Spec.rdeg a p) * Cert.Spec.rdeg a q := by
  have er : idx_main_v11 (idx_main_v12 (ix2 p q)) = ix1 p :=
    funext fun d => Fin.ext (by match d with | ⟨0, _⟩ => rfl)
  have ec : idx_main_v14 (idx_main_v15 (ix2 p q)) = ix1 q :=
    funext fun d => Fin.ext (by match d with | ⟨0, _⟩ => rfl)
  rw [val_main_v16_apply, val_main_v13_apply, val_main_v12_apply, val_main_v11_apply, val_main_v15_apply,
    val_main_v14_apply, er, ec, Ideal.mulf_def, Ideal.mulf_def, loops_entry, rdeg_entry, rdeg_entry]

/-- The support, entry by entry. -/
theorem sup_entry (x : FVec Ideal S8192x256 .f32) (w : FVec Ideal S256x256 .f32) (p : Fin 8192) (k : Fin 256) :
    val_main_v17 (F := Ideal) x w (ix2 p k) = Cert.Spec.sup x w p k := by
  rw [val_main_v17_apply]
  unfold Cert.Spec.sup
  refine Finset.sum_congr rfl fun l _ => ?_
  have el : lidx_main_v17 (ix2 p k) l = ix2 p l :=
    funext fun d => Fin.ext (by match d with | ⟨0, _⟩ => rfl | ⟨1, _⟩ => rfl)
  have er : ridx_main_v17 (ix2 p k) l = ix2 l k :=
    funext fun d => Fin.ext (by match d with | ⟨0, _⟩ => rfl | ⟨1, _⟩ => rfl)
  rw [el, er]

/-- The reference's last stage, as a function of the four arguments, is `refOut`: the identity matrix is
    `δ_ij` (two iotas compared and converted), the row sums start from `0`, the two broadcasts of the degree factor
    read it at the row and at the column, the two products are sums over the shared index, and the closing
    maximum is against `0`. -/
theorem ref_eq (x : FVec Ideal S8192x256 .f32) (a : FVec Ideal S8192x8192 .f32) (w : FVec Ideal S256x256 .f32)
    (b : FVec Ideal S256 .f32) :
    val_main_v22 (F := Ideal) x a w b = Cert.Spec.refOut a x w b := by
  funext i
  obtain ⟨p, k, rfl⟩ : ∃ p k, i = ix2 p k := ⟨i 0, i 1, eq_ix2 i⟩
  have eb : idx_main_v19 (idx_main_v20 (ix2 p k)) = ix1 k :=
    funext fun d => Fin.ext (by match d with | ⟨0, _⟩ => rfl)
  have el : ∀ j : Fin 8192, lidx_main_v18 (ix2 p k) j = ix2 p j := fun j =>
    funext fun d => Fin.ext (by match d with | ⟨0, _⟩ => rfl | ⟨1, _⟩ => rfl)
  have er : ∀ j : Fin 8192, ridx_main_v18 (ix2 p k) j = ix2 j k := fun j =>
    funext fun d => Fin.ext (by match d with | ⟨0, _⟩ => rfl | ⟨1, _⟩ => rfl)
  rw [val_main_v22_apply, val_main_v21_apply, val_main_v20_apply, val_main_v19_apply, val_main_call0_v0_apply,
    val_main_call0_cst_apply, val_main_v18_apply, eb, Ideal.maximumf_def, Ideal.addf_def, Ideal.ofBits_def,
    Ideal.ofBits_zero_f32]
  show max (_ + b (ix1 k)) 0 = max (_ + b (ix1 k)) 0
  refine congrArg (fun t => max (t + b (ix1 k)) 0) (Finset.sum_congr rfl fun j _ => ?_)
  rw [el j, er j, norm_entry, sup_entry]

end Cert.ReferenceIdeal.RefValue

end
-- ==== Proof.PreRead.lean ====
/- What the precondition says of the argument arrays at the extended reals: the entries are real numbers and every
   row sum of the adjacency with self-loops is positive. -/
import proofs.«149356_j79121887527623_1_alg».proof.Proof.Gen.Pre_finite_inputs
import proofs.«149356_j79121887527623_1_alg».proof.Proof.Spec
import Idealize.ShloMosaic.Lib.ValueIdx
import Idealize.ShloMosaic.Lib.IdealHost
import Idealize.ShloMosaic.Lib.ReduceAll
import Idealize.ShloMosaic.Lib.StableHlo.Predicate
import Idealize.ShloMosaic.PureOps.Ideal.Laws

noncomputable section

namespace Cert.PreRead

open Idealize.ShloMosaic Idealize.ShloMosaic.ValueIdx Cert.Pre_finite_inputs

/-- The shape with no axes has one index. -/
instance : Subsingleton S_.Idx := ⟨fun a b => funext fun d => d.elim0⟩

/-- An extended real whose absolute value lies strictly below `+∞` is a real number: `max v (-v)` is `+∞` at both
    infinities. -/
theorem real_of_abs_lt (v : EReal)
    (hv : FloatOps.cmpf (F := Ideal) (φ := .f32) .olt (FloatOps.hostAbsf (F := Ideal) (φ := .f32) v)
      (FloatOps.ofBits (F := Ideal) .f32 0x7F800000#32) = 1#1) :
    ∃ r : ℝ, v = (r : EReal) := by
  rw [Ideal.hostAbsf_def, Ideal.cmpf_def, Ideal.absf_def] at hv
  have htop : (FloatOps.ofBits (F := Ideal) .f32 0x7F800000#32 : EReal) = ⊤ := by
    show Ideal.ofBits .f32 0x7F800000#32 = ⊤
    simp [Ideal.ofBits, Ideal.ieee]
  rw [htop] at hv
  unfold Ideal.cmp at hv
  rw [StableHlo.Predicate.ofBool_eq_one_iff] at hv
  simp only [decide_eq_true_eq] at hv
  induction v using EReal.rec with
  | bot => simp at hv
  | coe r => exact ⟨r, rfl⟩
  | top => simp at hv

/-- Two coordinates below `2^32` with the same 32-bit word are the same coordinate. -/
theorem ofNat_inj (p q : Fin 8192) (e : BitVec.ofNat 32 p.val = BitVec.ofNat 32 q.val) : p = q := by
  have e' := congrArg BitVec.toNat e
  rw [BitVec.toNat_ofNat, BitVec.toNat_ofNat] at e'
  have hp := p.isLt
  have hq := q.isLt
  apply Fin.ext
  omega

/-- The entry `(p, q)` of the array "row coordinate plus zero equals column coordinate", converted to a float, is the
    identity matrix's entry. -/
theorem eye_entry (hb : S_.BroadcastsInDim S8192x8192 (![] : Fin 0 → Fin S8192x8192.rank)) (p q : Fin 8192) :
    uitofp (F := Ideal) .f32 (cmpi .eq (addi (iotaInDim S8192x8192 32 0) (broadcastInDim S8192x8192 ![] hb (constantI S_ 32 0#32)))
      (iotaInDim S8192x8192 32 1)) (ix2 p q) = Cert.Spec.eye p q := by
  show (((IntOp.cmpi .eq (IntOp.addi (BitVec.ofNat 32 p.val) 0#32) (BitVec.ofNat 32 q.val)).toNat : ℝ) : EReal) = Cert.Spec.eye p q
  have h0 : IntOp.addi (BitVec.ofNat 32 p.val) 0#32 = BitVec.ofNat 32 p.val := by
    unfold IntOp.addi; exact BitVec.add_zero _
  rw [h0]
  unfold Cert.Spec.eye
  by_cases hpq : p = q
  · subst hpq
    rw [if_pos rfl, StableHlo.Predicate.cmpi_eq_iff.2 rfl]
    norm_num
  · rw [if_neg hpq]
    have hne : ¬ IntOp.cmpi .eq (BitVec.ofNat 32 p.val) (BitVec.ofNat 32 q.val) = 1#1 := fun hc =>
      hpq (ofNat_inj p q (StableHlo.Predicate.cmpi_eq_iff.1 hc))
    rw [eq_zero_of_ne_one hne]
    norm_num

/-- The printed row sum at row `i`: zero plus the sum over the columns of `a_ij + δ_ij`. -/
theorem rowsum_eq (hb : S_.BroadcastsInDim S8192x8192 (![] : Fin 0 → Fin S8192x8192.rank))
    (hr : S8192x8192.ReducesTo [1] S8192) (hu : 0 < S_.numel) (a : FVec Ideal S8192x8192 .f32) (i : Fin 8192) :
    Host.reduceAdd (addf a (uitofp .f32 (cmpi .eq (addi (iotaInDim S8192x8192 32 0)
        (broadcastInDim S8192x8192 ![] hb (constantI S_ 32 0#32))) (iotaInDim S8192x8192 32 1))))
      (constant S_ .f32 0x00000000#32) hr hu (ix1 i) = Cert.Spec.rsum a i := by
  rw [hostReduceAdd_apply, Ideal.hostReduceAdd_single hr (by decide)]
  rw [show constant (F := Ideal) S_ .f32 0x00000000#32 (Shape.Idx.first hu) = 0 from Ideal.ofBits_zero_f32, zero_add]
  unfold Cert.Spec.rsum
  refine Finset.sum_congr rfl fun (k : Fin 8192) _ => ?_
  have hk : (Shape.Reduces.lift (s := S8192x8192) (t := S8192) (a := 1) (by decide) (ix1 i) k) = ix2 i k :=
    funext fun d => Fin.ext (by match d with | ⟨0, _⟩ => rfl | ⟨1, _⟩ => rfl)
  rw [hk, addf_apply, eye_entry hb i k]

/-- The precondition, all ones, gives: every entry of `x`, `a`, `w` is a real number (its absolute value is below
    `+∞`), and every row sum `Σ_j (a_ij + δ_ij)` is positive. -/
theorem of_pre (x : FVec Ideal S8192x256 .f32) (a : FVec Ideal S8192x8192 .f32) (w : FVec Ideal S256x256 .f32)
    (b : FVec Ideal S256 .f32) (h : Cert.Pre_finite_inputs.fn (F := Ideal) x a w b = fun _ => 1#1) :
    (∀ i, ∃ r : ℝ, x i = (r : EReal)) ∧ (∀ i, ∃ r : ℝ, a i = (r : EReal)) ∧ (∀ i, ∃ r : ℝ, w i = (r : EReal))
      ∧ ∀ i : Fin 8192, 0 < Cert.Spec.rsum a i := by
  have e := congrFun h ix0
  dsimp only [Cert.Pre_finite_inputs.fn, Cert.Pre_finite_inputs.fn_part1] at e
  obtain ⟨e4, es⟩ := IntOp.andi_eq_one.1 e
  obtain ⟨e3, -⟩ := IntOp.andi_eq_one.1 e4
  obtain ⟨e2, ew⟩ := IntOp.andi_eq_one.1 e3
  obtain ⟨ex, ea⟩ := IntOp.andi_eq_one.1 e2
  have hx := Host.reduce_andi_all _ _ _ _ ix0 ex
  have ha := Host.reduce_andi_all _ _ _ _ ix0 ea
  have hw := Host.reduce_andi_all _ _ _ _ ix0 ew
  have hs := Host.reduce_andi_all _ _ _ _ ix0 es
  refine ⟨fun i => real_of_abs_lt (x i) (hx i), fun i => real_of_abs_lt (a i) (ha i),
    fun i => real_of_abs_lt (w i) (hw i), fun i => ?_⟩
  have hi := hs (ix1 i)
  rw [cmpf_apply, rowsum_eq, Ideal.cmpf_def, broadcastInDim_scalar_apply, constant_apply, Ideal.ofBits_zero_f32] at hi
  unfold Ideal.cmp at hi
  rw [StableHlo.Predicate.ofBool_eq_one_iff] at hi
  simp only [decide_eq_true_eq] at hi
  exact hi

end Cert.PreRead

end
-- ==== Proof.lean ====
/-
  A graph-convolution layer, `relu (D^{-1/2} (A + I) D^{-1/2} · (x · w) + b)` with `D` the row sums of `A + I`, computed
  in three stages — the degree factors `d_i = rsqrt (Σ_j a_ij + 1)`; the support `s = x · w` and its rows scaled by
  `d`; the aggregation `max (d_i · Σ_j a_ij · (s_jk · d_j) + (d_i · d_i) · s_ik + b_k) 0`, the self-loop's term added
  apart instead of forming `A + I` — against the plain formula, which forms `A + I`, divides `1` by the square root
  of its row sums and multiplies the normalized matrix by the support.

  Over the extended reals the two agree where the reference's `1 / sqrt` is inside its domain: every row sum of
  `A + I` positive (the precondition's added conjunct), the entries real numbers. There `rsqrt r = 1 / sqrt r` is a
  positive real `d_i`, and distributing `d_i` over the aggregation's sum and reading the identity's one diagonal term
  off the reference's sum makes the two results one real number (Proof/Algebra.lean). At a negative row sum the two
  degree factors differ (`rsqrt` answers `⊥` where `1 / sqrt` answers `1 / ⊥ = 0`), which is why the conjunct is needed.

  The program's result is read off its run stage by stage (Proof/Region0.lean, Region1.lean, Region2.lean, composed in
  Proof/KernelValue.lean over the run of Proof/KernelRun.lean); the reference's off its run one operation at a time
  (Proof/RefValue.lean); what the precondition gives in Proof/PreRead.lean.
-/
import proofs.«149356_j79121887527623_1_alg».proof.Defs
import proofs.«149356_j79121887527623_1_alg».proof.Proof.Gen.Kernel
import proofs.«149356_j79121887527623_1_alg».proof.Proof.Gen.Kernel.Frame
import proofs.«149356_j79121887527623_1_alg».proof.Proof.Gen.KernelIdeal
import proofs.«149356_j79121887527623_1_alg».proof.Proof.Gen.KernelIdeal.Frame
import proofs.«149356_j79121887527623_1_alg».proof.Proof.Gen.ReferenceIdeal
import proofs.«149356_j79121887527623_1_alg».proof.Proof.Gen.ReferenceIdeal.Run
import proofs.«149356_j79121887527623_1_alg».proof.Proof.Gen.ReferenceIdeal.Read
import proofs.«149356_j79121887527623_1_alg».proof.Proof.Gen.Pre_finite_inputs
import proofs.«149356_j79121887527623_1_alg».proof.Proof.Spec
import proofs.«149356_j79121887527623_1_alg».proof.Proof.Algebra
import proofs.«149356_j79121887527623_1_alg».proof.Proof.KernelRun
import proofs.«149356_j79121887527623_1_alg».proof.Proof.KernelValue
import proofs.«149356_j79121887527623_1_alg».proof.Proof.RefValue
import proofs.«149356_j79121887527623_1_alg».proof.Proof.PreRead

noncomputable section

namespace Cert.Proof

open Idealize.ShloMosaic Idealize.ShloMosaic.TcCoe Idealize.SL.Sem

/-- The word-level program runs and keeps its arguments. -/
theorem frame_kernel : Cert.frame_Kernel := fun m ρ _ => Cert.Kernel.Gen.frame m ρ

/-- The program read at the extended reals runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result `Spec.kerOut` of the arguments: the three-stage program by its stages composed,
    the reference because its own formula `Spec.refOut` equals it under the precondition. -/
theorem algebraic : Cert.algebraic_KernelIdeal_ReferenceIdeal := by
  intro m ρ m' ρ' hpre hagree
  refine ⟨fun c => Cert.Spec.kerOut (m ((c.tc : Thread _ _).loc Cert.KernelIdeal.main_arg1))
    (m ((c.tc : Thread _ _).loc Cert.KernelIdeal.main_arg0)) (m ((c.tc : Thread _ _).loc Cert.KernelIdeal.main_arg2))
    (m ((c.tc : Thread _ _).loc Cert.KernelIdeal.main_arg3)), ?_, ?_⟩
  · exact (θ_run Cert.KernelIdeal.defs _ _).mono
      (fun r h c => ⟨(h c).1.trans (Cert.KernelIdeal.Whole.W4_result m ρ c), (h c).2⟩)
      (Cert.KernelIdeal.Gen.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v22_eq, Cert.ReferenceIdeal.RefValue.ref_eq, (hagree c).1, (hagree c).2.1,
      (hagree c).2.2.1, (hagree c).2.2.2]
    obtain ⟨hx, ha, hw, hpos⟩ := Cert.PreRead.of_pre _ _ _ _ (hpre c)
    exact (Cert.Spec.kerOut_eq_refOut _ _ _ _ hx ha hw hpos).symm

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, trivial, algebraic⟩

end Cert.Proof

end
